-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S1024 : Shape := ⟨1, ![1024]⟩
abbrev S50257x768 : Shape := ⟨2, ![50257, 768]⟩
abbrev S1024x768 : Shape := ⟨2, ![1024, 768]⟩
abbrev S_ : Shape := ⟨0, ![]⟩

class Facts : Prop where
  bcast_S_S50257x768 : S_.BroadcastsInDim S50257x768 (![] : Fin 0 → Fin S50257x768.rank)
  reducesTo_S50257x768_S_d0_1 : S50257x768.ReducesTo [0, 1] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : IVec S8x4096 32) (main_arg1 : IVec S1024 32) (main_arg2 : FVec F S50257x768 .f32) (main_arg3 : FVec F S1024x768 .f32) : IVec S_ 1 :=
  let main_v0 : FVec F S50257x768 .f32 := Host.absf main_arg2
  let main_cst : FVec F S_ .f32 := constant S_ .f32 0x7F800000#32
  let main_v1 : FVec F S50257x768 .f32 := broadcastInDim S50257x768 ![] bcast_S_S50257x768 main_cst
  let main_v2 : IVec S50257x768 1 := cmpf .olt main_v0 main_v1
  let main_c : IVec S_ 1 := constantI S_ 1 1#1
  let main_v3 : IVec S_ 1 := (fun x v => Host.reduce IntOp.andi x v reducesTo_S50257x768_S_d0_1 h_S_) main_v2 main_c
  let main_v4 : FVec F S1024x768 .f32 := Host.absf main_arg3
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_c_2 : IVec S_ 32 := constantI S_ 32 0#32
  let main_v9 : IVec S8x4096 32 := broadcastInDim S8x4096 ![] bcast_S_S8x4096 main_c_2
  let main_v10 : IVec S8x4096 1 := cmpi .sge main_arg0 main_v9
  let main_c_3 : IVec S_ 32 := constantI S_ 32 50257#32
  let main_v11 : IVec S8x4096 32 := broadcastInDim S8x4096 ![] bcast_S_S8x4096 main_c_3
  let main_v12 : IVec S8x4096 1 := cmpi .slt main_arg0 main_v11
  let main_v13 : IVec S8x4096 1 := andi main_v10 main_v12
  let main_c_4 : IVec S_ 1 := constantI S_ 1 1#1
  let main_v14 : IVec S_ 1 := (fun x v => Host.reduce IntOp.andi x v reducesTo_S8x4096_S_d0_1 h_S_) main_v13 main_c_4
  let main_v15 : IVec S_ 1 := andi main_v8 main_v14
  main_v15
-- ==== Kernel.lean ====
abbrev S8x4096 : Shape := ⟨2, ![8, 4096]⟩
abbrev S1024 : Shape := ⟨1, ![1024]⟩
abbrev S50257x768 : Shape := ⟨2, ![50257, 768]⟩
abbrev S1024x768 : Shape := ⟨2, ![1024, 768]⟩
abbrev S_ : Shape := ⟨0, ![]⟩
abbrev S50257 : Shape := ⟨1, ![50257]⟩
abbrev S1024x1 : Shape := ⟨2, ![1024, 1]⟩
abbrev S8x4096x1 : Shape := ⟨3, ![8, 4096, 1]⟩
abbrev S32768 : Shape := ⟨1, ![32768]⟩
abbrev S50257x1x768 : Shape := ⟨3, ![50257, 1, 768]⟩
abbrev S1024x1x768 : Shape := ⟨3, ![1024, 1, 768]⟩
abbrev S32768x1x768 : Shape := ⟨3, ![32768, 1, 768]⟩
abbrev S1x1x768 : Shape := ⟨3, ![1, 1, 768]⟩
abbrev S1 : Shape := ⟨1, ![1]⟩
abbrev S32768x768 : Shape := ⟨2, ![32768, 768]⟩
abbrev S8x4096x768 : Shape := ⟨3, ![8, 4096, 768]⟩

abbrev nBuf : Space → Nat
  | .hbm => 30
  | .vmem => 6
  | .smem => 2
  | _ => 0

abbrev bufTy : (tb : Table) → Fin (tcTables nBuf tb) → BufTy
  | .hbm, ⟨0, _⟩ => ⟨S8x4096, .i32⟩
  | .hbm, ⟨1, _⟩ => ⟨S1024, .i32⟩
  | .hbm, ⟨2, _⟩ => ⟨S50257x768, .f32⟩
  | .hbm, ⟨3, _⟩ => ⟨S1024x768, .f32⟩
  | .hbm, ⟨4, _⟩ => ⟨S_, .i32⟩
  | .hbm, ⟨5, _⟩ => ⟨S50257, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S50257, .i32⟩
  | .hbm, ⟨16, _⟩ => ⟨S_, .i32⟩
  | .hbm, ⟨17, _⟩ => ⟨S8x4096, .i32⟩
  | .hbm, ⟨18, _⟩ => ⟨S8x4096, .i1⟩
  | .hbm, ⟨19, _⟩ => ⟨S_, .i32⟩
  | .hbm, ⟨20, _⟩ => ⟨S8x4096, .i32⟩
  | .hbm, ⟨21, _⟩ => ⟨S8x4096, .i32⟩
  | .hbm, ⟨22, _⟩ => ⟨S8x4096, .i32⟩
  | .hbm, ⟨23, _⟩ => ⟨S8x4096x1, .i32⟩
  | .hbm, ⟨24, _⟩ => ⟨S8x4096, .i32⟩
  | .hbm, ⟨25, _⟩ => ⟨S50257x1x768, .f32⟩
  | .hbm, ⟨26, _⟩ => ⟨S1024x1x768, .f32⟩
  | .hbm, ⟨27, _⟩ => ⟨S32768x1x768, .f32⟩
  | .hbm, ⟨28, _⟩ => ⟨S32768x768, .f32⟩
  | .hbm, ⟨29, _⟩ => ⟨S8x4096x768, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .vmem, ⟨4, _⟩ => ⟨S1x1x768, .f32⟩
  | .local _ .vmem, ⟨5, _⟩ => ⟨S1x1x768, .f32⟩
  | .local _ .smem, ⟨0, _⟩ => ⟨S32768, .i32⟩
  | .local _ .smem, ⟨1, _⟩ => ⟨S32768, .i32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v16 : Ref sig .tc := ⟨.smem, 0, rfl⟩
abbrev main_v17 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32768], ![false]⟩

abbrev pre0 : Pipeline.Prefetch sig := ⟨2, ![main_v16.idx, main_v17.idx], fun | 0 => main_v16.names | 1 => main_v17.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k0_off1_inb i)) numel1_S1
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S50257 : S_.BroadcastsInDim S50257 (![] : Fin 0 → Fin S50257.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  shapeCasts_S8x4096_S32768 : S8x4096.ShapeCasts S32768
  shapeCasts_S50257x768_S50257x1x768 : S50257x768.ShapeCasts S50257x1x768
  shapeCasts_S1024x768_S1024x1x768 : S1024x768.ShapeCasts S1024x1x768
  numel1_S1 : S1.numel = 1
  inb_S1x1x768_S1x1x768_0_0_0 : ∀ a, (![0, 0, 0] : Fin 3 → Nat) a + S1x1x768.size a ≤ S1x1x768.size a
  h_S1x1x768 : 0 < S1x1x768.numel
  shapeCasts_S1x1x768_S1x1x768 : S1x1x768.ShapeCasts S1x1x768
  shapeCasts_S32768x1x768_S32768x768 : S32768x1x768.ShapeCasts S32768x768
  shapeCasts_S32768x768_S8x4096x768 : S32768x768.ShapeCasts S8x4096x768
  scatter_S50257_S1024x1_S1024_n_0_0_1_wf : ScatterDims.WF S50257 S1024x1 S1024 [] [0] [0] 1
  gather_S50257_S8x4096x1_S8x4096_n_0_n_n_0_2_1_wf : GatherDims.WF S50257 S8x4096x1 S8x4096 [] [0] [] [0] [] 2 ![1]
  hrank0 : 0 < grid0.rank
  k0_off1_inb : ∀ i : grid0.Coords, ∀ a, (k0_off1 i) a + S1.size a ≤ S32768.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x768.size a ≤ S32768x1x768.size a
  hwx0_2 : ∀ i : grid0.Coords, EltTy.bits .f32 = 32 ∨ (Rect.block (s := S32768x1x768) S1x1x768.size (cc0_transform_2 i) (hinb0_2 i)).WholeWords (EltTy.packing .f32)

variable [Facts₀]

def scatter_S50257_S1024x1_S1024_n_0_0_1 : ScatterDims S50257 S1024x1 S1024 where
  updateWindowDims := []
  insertedWindowDims := [0]
  scatterDimsToOperandDims := [0]
  indexVectorDim := 1
  wf := scatter_S50257_S1024x1_S1024_n_0_0_1_wf
def gather_S50257_S8x4096x1_S8x4096_n_0_n_n_0_2_1 : GatherDims S50257 S8x4096x1 S8x4096 where
  offsetDims := []
  collapsedSliceDims := [0]
  operandBatchingDims := []
  startIndicesBatchingDims := []
  startIndexMap := [0]
  indexVectorDim := 2
  sliceSizes := ![1]
  wf := gather_S50257_S8x4096x1_S8x4096_n_0_n_n_0_2_1_wf

abbrev spec0_0 : Pipeline.WinSpec sig grid0.rank :=
  Pipeline.WinSpec.ofSpec (Memref.whole main_v18) S1x1x768.size reads0_0 false false 2 stage0_0 sem0_0 nbuf0_0 hstage0_0

abbrev spec0_1 : Pipeline.WinSpec sig grid0.rank :=
  Pipeline.WinSpec.ofSpec (Memref.whole main_v19) S1x1x768.size reads0_1 false false 2 stage0_1 sem0_1 nbuf0_1 hstage0_1

abbrev spec0_2 : Pipeline.WinSpec sig grid0.rank :=
  Pipeline.WinSpec.ofSpec (Memref.whole main_v20) S1x1x768.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x768.size a ≤ S50257x1x768.size a), EltTy.bits .f32 = 32 ∨ (Rect.block (s := S50257x1x768) S1x1x768.size (cc0_transform_0 k0_off1_inb numel1_S1 pf i) h).WholeWords (EltTy.packing .f32)) ∧
  (∀ i : grid0.Coords, ∃ h : (∀ a, (cc0_transform_1 k0_off1_inb numel1_S1 pf i a + 1) * S1x1x768.size a ≤ S1024x1x768.size a), EltTy.bits .f32 = 32 ∨ (Rect.block (s := S1024x1x768) S1x1x768.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x4096 : Shape := ⟨2, ![8, 4096]⟩
abbrev S1024 : Shape := ⟨1, ![1024]⟩
abbrev S50257x768 : Shape := ⟨2, ![50257, 768]⟩
abbrev S1024x768 : Shape := ⟨2, ![1024, 768]⟩
abbrev S_ : Shape := ⟨0, ![]⟩
abbrev S50257 : Shape := ⟨1, ![50257]⟩
abbrev S1024x1 : Shape := ⟨2, ![1024, 1]⟩
abbrev S8x4096x1 : Shape := ⟨3, ![8, 4096, 1]⟩
abbrev S8x4096x768 : Shape := ⟨3, ![8, 4096, 768]⟩

abbrev nBuf : Space → Nat
  | .hbm => 52
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S1024, .i32⟩
  | .hbm, ⟨2, _⟩ => ⟨S50257x768, .f32⟩
  | .hbm, ⟨3, _⟩ => ⟨S1024x768, .f32⟩
  | .hbm, ⟨4, _⟩ => ⟨S_, .i32⟩
  | .hbm, ⟨5, _⟩ => ⟨S50257, .i32⟩
  | .hbm, ⟨6, _⟩ => ⟨S1024, .i32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S50257, .i32⟩
  | .hbm, ⟨16, _⟩ => ⟨S_, .i32⟩
  | .hbm, ⟨17, _⟩ => ⟨S8x4096, .i32⟩
  | .hbm, ⟨18, _⟩ => ⟨S8x4096, .i1⟩
  | .hbm, ⟨19, _⟩ => ⟨S_, .i32⟩
  | .hbm, ⟨20, _⟩ => ⟨S8x4096, .i32⟩
  | .hbm, ⟨21, _⟩ => ⟨S8x4096, .i32⟩
  | .hbm, ⟨22, _⟩ => ⟨S8x4096, .i32⟩
  | .hbm, ⟨23, _⟩ => ⟨S8x4096x1, .i32⟩
  | .hbm, ⟨24, _⟩ => ⟨S8x4096x768, .f32⟩
  | .hbm, ⟨25, _⟩ => ⟨S_, .i32⟩
  | .hbm, ⟨26, _⟩ => ⟨S8x4096, .i32⟩
  | .hbm, ⟨27, _⟩ => ⟨S8x4096, .i1⟩
  | .hbm, ⟨28, _⟩ => ⟨S_, .i32⟩
  | .hbm, ⟨29, _⟩ => ⟨S8x4096, .i32⟩
  | .hbm, ⟨30, _⟩ => ⟨S8x4096, .i32⟩
  | .hbm, ⟨31, _⟩ => ⟨S8x4096, .i32⟩
  | .hbm, ⟨32, _⟩ => ⟨S8x4096x1, .i32⟩
  | .hbm, ⟨33, _⟩ => ⟨S8x4096, .i32⟩
  | .hbm, ⟨34, _⟩ => ⟨S_, .i32⟩
  | .hbm, ⟨35, _⟩ => ⟨S8x4096, .i32⟩
  | .hbm, ⟨36, _⟩ => ⟨S8x4096, .i1⟩
  | .hbm, ⟨37, _⟩ => ⟨S_, .i32⟩
  | .hbm, ⟨38, _⟩ => ⟨S8x4096, .i32⟩
  | .hbm, ⟨39, _⟩ => ⟨S8x4096, .i32⟩
  | .hbm, ⟨40, _⟩ => ⟨S_, .i32⟩
  | .hbm, ⟨41, _⟩ => ⟨S8x4096, .i32⟩
  | .hbm, ⟨42, _⟩ => ⟨S8x4096, .i1⟩
  | .hbm, ⟨43, _⟩ => ⟨S_, .i32⟩
  | .hbm, ⟨44, _⟩ => ⟨S8x4096, .i32⟩
  | .hbm, ⟨45, _⟩ => ⟨S8x4096, .i32⟩
  | .hbm, ⟨46, _⟩ => ⟨S8x4096, .i32⟩
  | .hbm, ⟨47, _⟩ => ⟨S8x4096x1, .i32⟩
  | .hbm, ⟨48, _⟩ => ⟨S8x4096x768, .f32⟩
  | .hbm, ⟨49, _⟩ => ⟨S8x4096x1, .i1⟩
  | .hbm, ⟨50, _⟩ => ⟨S8x4096x768, .i1⟩
  | .hbm, ⟨51, _⟩ => ⟨S8x4096x768, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_c_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S_S50257 : S_.BroadcastsInDim S50257 (![] : Fin 0 → Fin S50257.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x768_0_1_2 : S8x4096x1.BroadcastsInDim S8x4096x768 (![0, 1, 2] : Fin 3 → Fin S8x4096x768.rank)
  scatter_S50257_S1024x1_S1024_n_0_0_1_wf : ScatterDims.WF S50257 S1024x1 S1024 [] [0] [0] 1
  gather_S50257x768_S8x4096x1_S8x4096x768_2_0_n_n_0_2_1768_wf : GatherDims.WF S50257x768 S8x4096x1 S8x4096x768 [2] [0] [] [0] [] 2 ![1, 768]
  gather_S50257_S8x4096x1_S8x4096_n_0_n_n_0_2_1_wf : GatherDims.WF S50257 S8x4096x1 S8x4096 [] [0] [] [0] [] 2 ![1]
  gather_S1024x768_S8x4096x1_S8x4096x768_2_0_n_n_0_2_1768_wf : GatherDims.WF S1024x768 S8x4096x1 S8x4096x768 [2] [0] [] [0] [] 2 ![1, 768]

variable [Facts₀]

def scatter_S50257_S1024x1_S1024_n_0_0_1 : ScatterDims S50257 S1024x1 S1024 where
  updateWindowDims := []
  insertedWindowDims := [0]
  scatterDimsToOperandDims := [0]
  indexVectorDim := 1
  wf := scatter_S50257_S1024x1_S1024_n_0_0_1_wf
def gather_S50257x768_S8x4096x1_S8x4096x768_2_0_n_n_0_2_1768 : GatherDims S50257x768 S8x4096x1 S8x4096x768 where
  offsetDims := [2]
  collapsedSliceDims := [0]
  operandBatchingDims := []
  startIndicesBatchingDims := []
  startIndexMap := [0]
  indexVectorDim := 2
  sliceSizes := ![1, 768]
  wf := gather_S50257x768_S8x4096x1_S8x4096x768_2_0_n_n_0_2_1768_wf
def gather_S50257_S8x4096x1_S8x4096_n_0_n_n_0_2_1 : GatherDims S50257 S8x4096x1 S8x4096 where
  offsetDims := []
  collapsedSliceDims := [0]
  operandBatchingDims := []
  startIndicesBatchingDims := []
  startIndexMap := [0]
  indexVectorDim := 2
  sliceSizes := ![1]
  wf := gather_S50257_S8x4096x1_S8x4096_n_0_n_n_0_2_1_wf
def gather_S1024x768_S8x4096x1_S8x4096x768_2_0_n_n_0_2_1768 : GatherDims S1024x768 S8x4096x1 S8x4096x768 where
  offsetDims := [2]
  collapsedSliceDims := [0]
  operandBatchingDims := []
  startIndicesBatchingDims := []
  startIndexMap := [0]
  indexVectorDim := 2
  sliceSizes := ![1, 768]
  wf := gather_S1024x768_S8x4096x1_S8x4096x768_2_0_n_n_0_2_1768_wf

class Facts : Prop extends Facts₀ where

variable [Facts]
-- ==== Proof.RowTable.lean ====
/-
  THE ROW TABLE OF AN EMBEDDING WITH OVERRIDDEN ROWS.

  A vocabulary of 50257 ids, of which up to 1024 ("tune ids") have a replacement row. The id → row table starts as
  −1 everywhere and receives, at each tune id (a negative one counted from the end, one outside the vocabulary
  dropped), the position of that id in the list of tune ids. The row of a token is the table read at the token's id
  (negative ids counted from the end, the read clamped into the vocabulary).

  What the rest of the proof needs of these two arrays is only their RANGE: every entry of the table, hence every
  token's row, is −1 or a position below 1024. That is a property of any "set" scatter: each entry of its result is
  the operand's entry or one of the updates, whatever the indices and whatever order colliding updates land in.
-/
import Idealize.ShloMosaic.PureOps
import Idealize.ShloMosaic.Lib.ValueIdx

noncomputable section

namespace Cert.RowTable

open Idealize.ShloMosaic

/-! ## A scatter that SETS: every entry of the result is the operand's or an update -/

/-- Each entry of `x.at[idx].set(upd)` is `x`'s entry there or one of the updates: the fold over the updates keeps
    this at every step (a step either leaves an entry or replaces it by the update it carries). -/
theorem scatter_set_mem {α : Type} {s si u : Shape} {w : Nat} (d : ScatterDims s si u) (x : s.Idx → α)
    (idx : IVec si w) (upd : u.Idx → α) (i : s.Idx) :
    Host.scatter d (fun _ b => b) x idx upd i = x i ∨ ∃ j, Host.scatter d (fun _ b => b) x idx upd i = upd j := by
  unfold Host.scatter
  have key : ∀ (l : List (Fin u.numel)) (r : s.Idx → α), (∀ i, r i = x i ∨ ∃ j, r i = upd j) →
      ∀ i, (l.foldl (fun r n =>
          match d.resultIdx? (u.rowMajor.symm n) idx with
          | some i => fun i' => if i' = i then (fun _ b => b) (r i) (upd (u.rowMajor.symm n)) else r i'
          | none => r) r) i = x i ∨
        ∃ j, (l.foldl (fun r n =>
          match d.resultIdx? (u.rowMajor.symm n) idx with
          | some i => fun i' => if i' = i then (fun _ b => b) (r i) (upd (u.rowMajor.symm n)) else r i'
          | none => r) r) i = upd j := by
    intro l
    induction l with
    | nil => intro r h; exact h
    | cons n l ih =>
      intro r h
      simp only [List.foldl_cons]
      refine ih _ (fun i' => ?_)
      generalize d.resultIdx? (u.rowMajor.symm n) idx = o
      cases o with
      | none => exact h i'
      | some i0 =>
        dsimp only
        by_cases hi : i' = i0
        · right; exact ⟨u.rowMajor.symm n, by rw [if_pos hi]⟩
        · rw [if_neg hi]; exact h i'
  exact key _ x (fun i => Or.inl rfl) i

/-! ## The two arrays -/

abbrev STok : Shape := ⟨2, ![8, 4096]⟩
abbrev STok1 : Shape := ⟨3, ![8, 4096, 1]⟩
abbrev STune : Shape := ⟨1, ![1024]⟩
abbrev STune1 : Shape := ⟨2, ![1024, 1]⟩
abbrev SVocab : Shape := ⟨1, ![50257]⟩
abbrev S0 : Shape := ⟨0, ![]⟩

/-- The scatter of one scalar per tune id into the table's one axis. -/
def setDims : ScatterDims SVocab STune1 STune where
  updateWindowDims := []
  insertedWindowDims := [0]
  scatterDimsToOperandDims := [0]
  indexVectorDim := 1

/-- The read of the flat table at one start index per token. -/
def takeDims : GatherDims SVocab STok1 STok where
  offsetDims := []
  collapsedSliceDims := [0]
  operandBatchingDims := []
  startIndicesBatchingDims := []
  startIndexMap := [0]
  indexVectorDim := 2
  sliceSizes := ![1]

/-- An index counted from the end when negative: `i < 0 ? i + n : i`, elementwise. -/
def wrapNeg (s : Shape) (hb : S0.BroadcastsInDim s (![] : Fin 0 → Fin s.rank)) (n : BitVec 32) (i : IVec s 32) : IVec s 32 :=
  select (cmpi .slt i (broadcastInDim s ![] hb (constantI S0 32 0#32)))
    (addi i (broadcastInDim s ![] hb (constantI S0 32 n))) i

/-- The id → row table: −1, and at tune id `tune[k]` the position `k`. -/
def id2row (tune : IVec STune 32) : IVec SVocab 32 :=
  Host.scatter setDims (fun _ b => b)
    (broadcastInDim SVocab ![] (by decide) (constantI S0 32 4294967295#32))
    (broadcastInDim STune1 ![0] (by decide) (wrapNeg STune (by decide) 50257#32 tune))
    (iotaInDim STune 32 0)

/-- A token's row: the table at the token's id. -/
def rows (ids : IVec STok 32) (tune : IVec STune 32) : IVec STok 32 :=
  Host.gather takeDims (id2row tune)
    (broadcastInDim STok1 ![0, 1] (by decide) (wrapNeg STok (by decide) 50257#32 ids))

/-! ## Their range -/

/-- A word that is −1 or, unsigned, below 1024. -/
def IsRow (v : BitVec 32) : Prop := v = 4294967295#32 ∨ v.toNat < 1024

theorem id2row_isRow (tune : IVec STune 32) (i : SVocab.Idx) : IsRow (id2row tune i) := by
  unfold id2row
  rcases scatter_set_mem setDims _ _ (iotaInDim STune 32 0) i with h | ⟨j, h⟩
  · left; rw [h]; rfl
  · right; rw [h]
    show (BitVec.ofNat 32 (j 0).val).toNat < 1024
    have hj : (j 0).val < 1024 := (j 0).isLt
    rw [BitVec.toNat_ofNat]
    exact lt_of_le_of_lt (Nat.mod_le _ _) hj

theorem rows_isRow (ids : IVec STok 32) (tune : IVec STune 32) (y : STok.Idx) : IsRow (rows ids tune y) := by
  unfold rows Host.gather
  exact id2row_isRow tune _

/-- The row clamped below at 0 names a replacement row. -/
theorem IsRow.max_lt {v : BitVec 32} (h : IsRow v) : (IntOp.maxsi v 0#32).toNat < 1024 := by
  rcases h with rfl | h
  · decide
  · unfold IntOp.maxsi
    split
    · exact h
    · decide

/-- A row that is not negative is itself a position below 1024. -/
theorem IsRow.lt_of_sge {v : BitVec 32} (h : IsRow v) (hs : IntOp.cmpi .sge v 0#32 = 1#1) : v.toNat < 1024 := by
  rcases h with rfl | h
  · exact absurd hs (by decide)
  · exact h

end Cert.RowTable

end
-- ==== Proof.OutSpec.lean ====
/-
  WHAT THE OVERRIDE EMBEDDING RETURNS, ELEMENT BY ELEMENT.

  Token `(b, s)` has an id `ids[b, s]` and a row `rows[b, s]` (Proof/RowTable.lean: −1, or the position of its id
  among the tune ids). Its output vector is the replacement row `train[rows[b, s]]` when the row is not negative, and
  the vocabulary row `base[ids[b, s]]` otherwise. Both reads are written with the index clamped into its table (the
  last row for an index past the end), so that the function is total; on ids inside the vocabulary, and on rows, which
  always are −1 or below 1024, the clamps do nothing.
-/
import proofs.«422221_j4063039062251_2_alg».proof.Proof.RowTable

noncomputable section

namespace Cert.OutSpec

open Idealize.ShloMosaic Idealize.ShloMosaic.ValueIdx Cert.RowTable

abbrev SBase : Shape := ⟨2, ![50257, 768]⟩
abbrev STrain : Shape := ⟨2, ![1024, 768]⟩
abbrev SOut : Shape := ⟨3, ![8, 4096, 768]⟩

/-- Every token id lies in the vocabulary: `0 ≤ ids[b, s] < 50257`, read signed. -/
def IdsInVocab (ids : IVec STok 32) : Prop :=
  ∀ y : STok.Idx, IntOp.cmpi .sge (ids y) 0#32 = 1#1 ∧ IntOp.cmpi .slt (ids y) 50257#32 = 1#1

/-- The vocabulary row an id names, clamped to the last row. -/
def baseRow (v : BitVec 32) : Fin 50257 := ⟨min v.toNat 50256, by omega⟩

/-- The replacement row a row word names: the word clamped below at 0, and to the last row. -/
def trainRow (r : BitVec 32) : Fin 1024 := ⟨min (IntOp.maxsi r 0#32).toNat 1023, by omega⟩

/-- The token `(b, s)` of an output element `(b, s, k)`. -/
abbrev tok (y : SOut.Idx) : STok.Idx := ix2 (y 0) (y 1)

/-- The result: element `(b, s, k)` is `train[rows[b, s], k]` where the row is not negative, else `base[ids[b, s], k]`. -/
def out {α : Type} (ids : IVec STok 32) (tune : IVec STune 32) (base : SBase.Idx → α) (train : STrain.Idx → α) :
    SOut.Idx → α :=
  fun y => Scalar.select (IntOp.cmpi .sge (rows ids tune (tok y)) 0#32)
    (train (ix2 (trainRow (rows ids tune (tok y))) (y 2)))
    (base (ix2 (baseRow (ids (tok y))) (y 2)))

end Cert.OutSpec

end
-- ==== Proof.PreDecode.lean ====
/-
  THE PRECONDITION, READ BACK: every token id lies in the vocabulary.

  The precondition is the conjunction of three "all" tests: the two float tables finite, and `0 ≤ ids < 50257` at every
  token. Each `all` is a reduction by `and` from 1, the conjunction an `and` of one-bit words; a result of 1 means
  every conjunct is 1 and every element under an `all` is 1. Only the third conjunct is read here: the proof never
  needs the float tables to be finite (no arithmetic is done on them, they are only moved).
-/
import proofs.«422221_j4063039062251_2_alg».proof.Pre_finite_inputs
import proofs.«422221_j4063039062251_2_alg».proof.Proof.Gen.Pre_finite_inputs
import proofs.«422221_j4063039062251_2_alg».proof.Proof.OutSpec
import Idealize.ShloMosaic.Lib.ReduceAll

noncomputable section

namespace Cert.PreDecode

open Idealize.ShloMosaic Idealize.ShloMosaic.ValueIdx Cert.Pre_finite_inputs

instance : Subsingleton S_.Idx := ⟨fun a b => funext fun d => d.elim0⟩

/-- From the precondition's value 1 to the range of every token id, at any float instance. -/
theorem idsInVocab {F : FTy → Type} [FloatOps F] (ids : IVec S8x4096 32) (tune : IVec S1024 32)
    (base : FVec F S50257x768 .f32) (train : FVec F S1024x768 .f32)
    (h : fn (F := F) ids tune base train = fun _ => 1#1) : Cert.OutSpec.IdsInVocab ids := by
  intro y
  have e := congrFun h ix0
  dsimp only [fn] at e
  have e2 := (IntOp.andi_eq_one.1 e).2
  have e3 := Host.reduce_andi_all _ _ _ _ _ e2 y
  exact IntOp.andi_eq_one.1 e3

end Cert.PreDecode

end
-- ==== Proof.TablesBits.lean ====
/-
  THE TWO PREFETCHED TABLES, as functions of the arguments.

  Before the kernel is launched the host flattens the token ids `[8, 4096]` to `[32768]`: that is the first table. The
  second is the flattened row array (Proof/RowTable.lean): the id → row table built from the tune ids and read at every
  token's id. Both are stated here as they stand when the kernel's region is entered, on the program's one device. What
  follows of them for every entry, whatever its position: the first table's words are token ids, the second's are rows.
-/
import proofs.«422221_j4063039062251_2_alg».proof.Proof.Gen.Kernel.Frame
import proofs.«422221_j4063039062251_2_alg».proof.Proof.OutSpec
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The token ids and the tune ids the program is launched with (device 0, the one device). -/
abbrev idsOf : IVec S8x4096 32 := m (((0 : Dev nD) : Thread nD τ).loc main_arg0)
abbrev tuneOf : IVec S1024 32 := m (((0 : Dev nD) : Thread nD τ).loc main_arg1)

/-- The first table is the token ids, flattened. -/
theorem tbl0_eq : (tbl m 0 : S32768.Idx → BitVec 32) = shapeCast S32768 (idsOf m) shapeCasts_S8x4096_S32768 := by
  show StableHlo.after hostOps0 (fun b => m ((0 : Dev nD), b)) (Proc.devRef .tc main_v16) = _
  after_results_simp
  rfl

set_option maxHeartbeats 2000000 in
/-- The second table is the rows, flattened. -/
theorem tbl1_eq : (tbl m 1 : S32768.Idx → BitVec 32)
    = shapeCast S32768 (Cert.RowTable.rows (idsOf m) (tuneOf m)) shapeCasts_S8x4096_S32768 := by
  show StableHlo.after hostOps0 (fun b => m ((0 : Dev nD), b)) (Proc.devRef .tc main_v17) = _
  after_results_simp
  rfl

/-- Every word of the first table is a token id. -/
theorem tbl0_mem (x : S32768.Idx) : ∃ y : S8x4096.Idx, tbl m 0 x = idsOf m y := by
  rw [tbl0_eq]; exact ⟨_, rfl⟩

/-- Every word of the second table is a row. -/
theorem tbl1_isRow (x : S32768.Idx) : Cert.RowTable.IsRow (tbl m 1 x) := by
  rw [tbl1_eq]; exact Cert.RowTable.rows_isRow _ _ _

end Cert.Kernel.Tables

end
-- ==== Proof.IndexWords.lean ====
/-
  INDEX WORDS: what a signed range test says of a 32-bit word.

  An index arrives as a 32-bit word and is used three ways: as an unsigned number (a block index), as a signed number
  made non-negative and clamped (a gather's start), and through the wrap "counted from the end when negative". For a
  word whose signed value lies in `[0, n)` with `n` small the three agree: the unsigned value is the signed one, it is
  below `n`, and the wrap leaves the word alone.
-/
import Idealize.ShloMosaic.PureOps

namespace Cert.IndexWords

open Idealize.ShloMosaic

theorem ofBool_eq_one (b : Bool) : BitVec.ofBool b = 1#1 ↔ b = true := by cases b <;> decide

/-- `v ≥ 0` signed: the signed value is the unsigned one. -/
theorem toInt_of_sge {v : BitVec 32} (h0 : IntOp.cmpi .sge v 0#32 = 1#1) : v.toInt = (v.toNat : Int) := by
  unfold IntOp.cmpi at h0
  rw [ofBool_eq_one] at h0
  simp only [BitVec.sle, decide_eq_true_eq] at h0
  have h32 := v.isLt
  unfold BitVec.toInt at h0 ⊢
  split <;> simp_all <;> omega

/-- `v ≥ 0` signed: the start a gather reads, the signed value made a natural number, is the unsigned value. -/
theorem toInt_toNat_of_sge {v : BitVec 32} (h0 : IntOp.cmpi .sge v 0#32 = 1#1) : v.toInt.toNat = v.toNat := by
  rw [toInt_of_sge h0]; exact Int.toNat_natCast _

/-- `v ≥ 0` signed: the test "negative" fails. -/
theorem slt_zero_of_sge {v : BitVec 32} (h0 : IntOp.cmpi .sge v 0#32 = 1#1) : IntOp.cmpi .slt v 0#32 = 0#1 := by
  have h := toInt_of_sge h0
  unfold IntOp.cmpi
  have : v.slt 0#32 = false := by
    simp only [BitVec.slt, decide_eq_false_iff_not, not_lt]
    rw [h]; simp
  rw [this]; rfl

/-- `v ≥ 0` signed: the larger of `v` and `0` is `v`. -/
theorem maxsi_zero_of_sge {v : BitVec 32} (h0 : IntOp.cmpi .sge v 0#32 = 1#1) : IntOp.maxsi v 0#32 = v := by
  have h := toInt_of_sge h0
  unfold IntOp.maxsi
  split
  · rfl
  · rename_i hn
    simp only [BitVec.slt, decide_eq_true_eq, not_lt] at hn
    rw [h] at hn
    have : v.toNat = 0 := by simpa using hn
    have hv : v = 0#32 := BitVec.eq_of_toNat_eq (by rw [this]; rfl)
    rw [hv]

/-- `0 ≤ v < n` signed, `n` below `2^31`: the unsigned value is below `n`. -/
theorem toNat_lt_of_range {v : BitVec 32} (n : Nat) (hn : n < 2 ^ 31) (h0 : IntOp.cmpi .sge v 0#32 = 1#1)
    (h1 : IntOp.cmpi .slt v (BitVec.ofNat 32 n) = 1#1) : v.toNat < n := by
  have h := toInt_of_sge h0
  unfold IntOp.cmpi at h1
  rw [ofBool_eq_one] at h1
  simp only [BitVec.slt, decide_eq_true_eq] at h1
  rw [h] at h1
  have hn' : (BitVec.ofNat 32 n).toInt = (n : Int) := by
    unfold BitVec.toInt
    rw [BitVec.toNat_ofNat, Nat.mod_eq_of_lt (by omega)]
    split <;> omega
  rw [hn'] at h1
  exact_mod_cast h1

end Cert.IndexWords
-- ==== Proof.OkBits.lean ====
/-
  EVERY GATHERED BLOCK LIES INSIDE ITS TABLE.

  At token `t` the kernel is handed row `ids[t]` of the vocabulary table `[50257, 1, 768]` and row `max(rows[t], 0)` of
  the replacement table `[1024, 1, 768]`, the two indices read off the prefetched tables. The first is inside the table
  because every token id lies in the vocabulary (the precondition); the second because a row is −1 or a position below
  1024, so that its larger with 0 is below 1024 — whatever the tune ids are. Rows are one word wide, so each transfer is
  of whole words.
-/
import proofs.«422221_j4063039062251_2_alg».proof.Proof.TablesBits
import proofs.«422221_j4063039062251_2_alg».proof.Proof.IndexWords

set_option maxRecDepth 16384

noncomputable section

namespace Cert.Kernel.OkOfIds

open Cert.Kernel Cert.Kernel.Gen Cert.Kernel.Tables
open Idealize.ShloMosaic Idealize.ShloMosaic.TcCoe Idealize.SL.Sem

variable {F : FTy → Type} [FloatOps F]

/-- The vocabulary window's block index at a grid point: a word of the first table, unsigned, on axis 0. Stated for
    any contents of the tables. -/
theorem transform0_shape (pf : pre0.Contents (Elt F)) (i : grid0.Coords) :
    ∃ x : S32768.Idx, cc0_transform_0 k0_off1_inb numel1_S1 pf i = ![((pf 0 x : BitVec 32)).toNat, 0, 0] :=
  ⟨_, rfl⟩

/-- The replacement window's block index at a grid point: a word of the second table, made non-negative, on axis 0. -/
theorem transform1_shape (pf : pre0.Contents (Elt F)) (i : grid0.Coords) :
    ∃ x : S32768.Idx, cc0_transform_1 k0_off1_inb numel1_S1 pf i = ![(IntOp.maxsi (pf 1 x : BitVec 32) 0#32).toNat, 0, 0] :=
  ⟨_, rfl⟩

/-- A block of one row at row `r` of a table of `n` rows of width 768 is inside it when `r < n`. -/
theorem row_block_inb (r n : Nat) (hr : r < n) (a : Fin 3) :
    ((![r, 0, 0] : Fin 3 → Nat) a + 1) * (![1, 1, 768] : Fin 3 → Nat) a ≤ (![n, 1, 768] : Fin 3 → Nat) a := by
  match a with
  | ⟨0, _⟩ => show (r + 1) * 1 ≤ n; omega
  | ⟨1, _⟩ => show (0 + 1) * 1 ≤ 1; omega
  | ⟨2, _⟩ => show (0 + 1) * 768 ≤ 768; omega

variable (m : (ℓ : Loc nD τ sig) → Buf (Elt F) ℓ)

/-- The pipeline's side condition of the tables, from the range of the token ids. -/
theorem ok_of_ids (hids : Cert.OutSpec.IdsInVocab (idsOf m)) : Ok m := by
  refine ⟨fun i => ?_, fun i => ?_⟩
  · obtain ⟨x, e⟩ := transform0_shape (tbl m) i
    obtain ⟨y, hy⟩ := tbl0_mem m x
    have hw : ((tbl m 0 x : BitVec 32)).toNat < 50257 := by
      rw [hy]; exact Cert.IndexWords.toNat_lt_of_range 50257 (by decide) (hids y).1 (hids y).2
    refine ⟨fun a => ?_, Or.inl rfl⟩
    rw [e]
    exact row_block_inb _ 50257 hw a
  · obtain ⟨x, e⟩ := transform1_shape (tbl m) i
    have hw : (IntOp.maxsi (tbl m 1 x : BitVec 32) 0#32).toNat < 1024 := (tbl1_isRow m x).max_lt
    refine ⟨fun a => ?_, Or.inl rfl⟩
    rw [e]
    exact row_block_inb _ 1024 hw a

end Cert.Kernel.OkOfIds

end
-- ==== Proof.TablesIdeal.lean ====
/-
  THE TWO PREFETCHED TABLES, as functions of the arguments.

  Before the kernel is launched the host flattens the token ids `[8, 4096]` to `[32768]`: that is the first table. The
  second is the flattened row array (Proof/RowTable.lean): the id → row table built from the tune ids and read at every
  token's id. Both are stated here as they stand when the kernel's region is entered, on the program's one device. What
  follows of them for every entry, whatever its position: the first table's words are token ids, the second's are rows.
-/
import proofs.«422221_j4063039062251_2_alg».proof.Proof.Gen.KernelIdeal.Frame
import proofs.«422221_j4063039062251_2_alg».proof.Proof.OutSpec
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The token ids and the tune ids the program is launched with (device 0, the one device). -/
abbrev idsOf : IVec S8x4096 32 := m (((0 : Dev nD) : Thread nD τ).loc main_arg0)
abbrev tuneOf : IVec S1024 32 := m (((0 : Dev nD) : Thread nD τ).loc main_arg1)

/-- The first table is the token ids, flattened. -/
theorem tbl0_eq : (tbl m 0 : S32768.Idx → BitVec 32) = shapeCast S32768 (idsOf m) shapeCasts_S8x4096_S32768 := by
  show StableHlo.after hostOps0 (fun b => m ((0 : Dev nD), b)) (Proc.devRef .tc main_v16) = _
  after_results_simp
  rfl

set_option maxHeartbeats 2000000 in
/-- The second table is the rows, flattened. -/
theorem tbl1_eq : (tbl m 1 : S32768.Idx → BitVec 32)
    = shapeCast S32768 (Cert.RowTable.rows (idsOf m) (tuneOf m)) shapeCasts_S8x4096_S32768 := by
  show StableHlo.after hostOps0 (fun b => m ((0 : Dev nD), b)) (Proc.devRef .tc main_v17) = _
  after_results_simp
  rfl

/-- Every word of the first table is a token id. -/
theorem tbl0_mem (x : S32768.Idx) : ∃ y : S8x4096.Idx, tbl m 0 x = idsOf m y := by
  rw [tbl0_eq]; exact ⟨_, rfl⟩

/-- Every word of the second table is a row. -/
theorem tbl1_isRow (x : S32768.Idx) : Cert.RowTable.IsRow (tbl m 1 x) := by
  rw [tbl1_eq]; exact Cert.RowTable.rows_isRow _ _ _

end Cert.KernelIdeal.Tables

end
-- ==== Proof.OkIdeal.lean ====
/-
  EVERY GATHERED BLOCK LIES INSIDE ITS TABLE.

  At token `t` the kernel is handed row `ids[t]` of the vocabulary table `[50257, 1, 768]` and row `max(rows[t], 0)` of
  the replacement table `[1024, 1, 768]`, the two indices read off the prefetched tables. The first is inside the table
  because every token id lies in the vocabulary (the precondition); the second because a row is −1 or a position below
  1024, so that its larger with 0 is below 1024 — whatever the tune ids are. Rows are one word wide, so each transfer is
  of whole words.
-/
import proofs.«422221_j4063039062251_2_alg».proof.Proof.TablesIdeal
import proofs.«422221_j4063039062251_2_alg».proof.Proof.IndexWords

set_option maxRecDepth 16384

noncomputable section

namespace Cert.KernelIdeal.OkOfIds

open Cert.KernelIdeal Cert.KernelIdeal.Gen Cert.KernelIdeal.Tables
open Idealize.ShloMosaic Idealize.ShloMosaic.TcCoe Idealize.SL.Sem

variable {F : FTy → Type} [FloatOps F]

/-- The vocabulary window's block index at a grid point: a word of the first table, unsigned, on axis 0. Stated for
    any contents of the tables. -/
theorem transform0_shape (pf : pre0.Contents (Elt F)) (i : grid0.Coords) :
    ∃ x : S32768.Idx, cc0_transform_0 k0_off1_inb numel1_S1 pf i = ![((pf 0 x : BitVec 32)).toNat, 0, 0] :=
  ⟨_, rfl⟩

/-- The replacement window's block index at a grid point: a word of the second table, made non-negative, on axis 0. -/
theorem transform1_shape (pf : pre0.Contents (Elt F)) (i : grid0.Coords) :
    ∃ x : S32768.Idx, cc0_transform_1 k0_off1_inb numel1_S1 pf i = ![(IntOp.maxsi (pf 1 x : BitVec 32) 0#32).toNat, 0, 0] :=
  ⟨_, rfl⟩

/-- A block of one row at row `r` of a table of `n` rows of width 768 is inside it when `r < n`. -/
theorem row_block_inb (r n : Nat) (hr : r < n) (a : Fin 3) :
    ((![r, 0, 0] : Fin 3 → Nat) a + 1) * (![1, 1, 768] : Fin 3 → Nat) a ≤ (![n, 1, 768] : Fin 3 → Nat) a := by
  match a with
  | ⟨0, _⟩ => show (r + 1) * 1 ≤ n; omega
  | ⟨1, _⟩ => show (0 + 1) * 1 ≤ 1; omega
  | ⟨2, _⟩ => show (0 + 1) * 768 ≤ 768; omega

variable (m : (ℓ : Loc nD τ sig) → Buf (Elt F) ℓ)

/-- The pipeline's side condition of the tables, from the range of the token ids. -/
theorem ok_of_ids (hids : Cert.OutSpec.IdsInVocab (idsOf m)) : Ok m := by
  refine ⟨fun i => ?_, fun i => ?_⟩
  · obtain ⟨x, e⟩ := transform0_shape (tbl m) i
    obtain ⟨y, hy⟩ := tbl0_mem m x
    have hw : ((tbl m 0 x : BitVec 32)).toNat < 50257 := by
      rw [hy]; exact Cert.IndexWords.toNat_lt_of_range 50257 (by decide) (hids y).1 (hids y).2
    refine ⟨fun a => ?_, Or.inl rfl⟩
    rw [e]
    exact row_block_inb _ 50257 hw a
  · obtain ⟨x, e⟩ := transform1_shape (tbl m) i
    have hw : (IntOp.maxsi (tbl m 1 x : BitVec 32) 0#32).toNat < 1024 := (tbl1_isRow m x).max_lt
    refine ⟨fun a => ?_, Or.inl rfl⟩
    rw [e]
    exact row_block_inb _ 1024 hw a

end Cert.KernelIdeal.OkOfIds

end
-- ==== Proof.KerBlocks.lean ====
/-
  WHAT THE KERNEL WRITES AT ONE TOKEN.

  The grid has one point per token `n` (32768 of them). At point `n` the pipeline hands the body one row of the
  vocabulary table `[50257, 1, 768]` — row `ids[n]`, the word of the first prefetched table at `n`, read unsigned — and
  one row of the replacement table `[1024, 1, 768]` — row `max(rows[n], 0)`, from the second table. The body reads the
  word `rows[n]` again and stores, into row `n` of the output `[32768, 1, 768]`, the replacement row when the word is
  not negative and the vocabulary row otherwise. This file reads those three blocks at an element: where each block
  sits in its array (block index times block size plus the coordinate inside the block, on every axis), and what the
  body's one store leaves.
-/
import proofs.«422221_j4063039062251_2_alg».proof.Proof.Gen.KernelIdeal.Frame
import proofs.«422221_j4063039062251_2_alg».proof.Proof.TablesIdeal
import proofs.«422221_j4063039062251_2_alg».proof.Proof.IndexWords
import Idealize.ShloMosaic.Lib.Pipeline.Value
import Idealize.ShloMosaic.Lib.Tactic
import Idealize.ShloMosaic.Lib.ValueIdx

set_option maxRecDepth 16384

noncomputable section

namespace Cert.KernelIdeal.Blocks

open Cert.KernelIdeal Cert.KernelIdeal.Gen Cert.KernelIdeal.Tables
open Idealize.ShloMosaic Idealize.ShloMosaic.TcCoe Idealize.SL.Sem
open Idealize.ShloMosaic.Pipeline (Dat)
open Idealize.ShloMosaic.ValueIdx Cert.OutSpec

variable {F : FTy → Type} [FloatOps F]

/-! ## The body's one store -/

theorem hz : (![0, 0, 0] : Fin 3 → Nat) = fun _ => 0 := funext fun a => by fin_cases a <;> rfl

/-- What the body leaves in the output's staging buffer at grid coordinates `i`, token `n`: its one covering store's
    payload, of the second table's word at `n` and the two input blocks (the loads read the whole buffers). -/
theorem out_A (c : Dev nD) (i : grid0.Coords) (a3 : Memref sig .tc .vmem S1x1x768 .f32) (h3 : a3.IsWhole)
    (a4 : Memref sig .tc .vmem S1x1x768 .f32) (h4 : a4.IsWhole) (a5 : Memref sig .tc .vmem S1x1x768 .f32) (h5 : a5.IsWhole)
    (x0 x1 : Vec F S1x1x768 .f32) (xt0 : TbBuf0 (F := F) c tbM0_0) (xt1 : TbBuf0 (F := F) c tbM0_1)
    (n : Fin 32768) (hn : (i 0).val = n.val) :
    out0_A_2 c i a3 h3 a4 h4 a5 h5 x0 x1 xt0 xt1 = k0_pay1 (xt1 (ix1 n)) x1 x0 := by
  unfold out0_A_2
  rw [View.read_writes_eq_canon _ _ _ (cover0_A_2 c i a3 h3 a4 h4 a5 h5 x0 x1 xt0 xt1)]
  unfold kernelRun0_A
  dsimp only
  sl_unfold_words
  rw [View.canon_unit_zero hz]
  simp only [View.readAt_eq_ld, h3.read_unread, h4.read_unread, View.ld_unit_zero (S := S1x1x768) hz]
  refine congrArg (fun w => k0_pay1 w x1 x0) ?_
  show xt1 _ = xt1 _
  refine congrArg xt1 ?_
  funext a
  apply Fin.ext
  match a with
  | ⟨0, _⟩ =>
    show (BitVec.ofNat 32 (i 0).val).toNat + 1 * 0 = n.val
    have hi : (i 0).val < 32768 := (i 0).isLt
    rw [BitVec.toNat_ofNat, Nat.mod_eq_of_lt (by omega)]; omega

/-- A select between whole vectors on one bit, read at an index, selects between the elements. -/
theorem select_vec_apply {ι α : Type} (b : BitVec 1) (f g : ι → α) (y : ι) :
    (Scalar.select b f g) y = Scalar.select b (f y) (g y) := by
  unfold Scalar.select; split <;> rfl

/-- The payload at an index: the replacement block's element where the row word is not negative, else the
    vocabulary block's. -/
theorem pay_apply (v : BitVec 32) (x1 x0 : Vec F S1x1x768 .f32) (y : S1x1x768.Idx) :
    k0_pay1 (F := F) v x1 x0 y = Scalar.select (IntOp.cmpi .sge v 0#32) (x1 y) (x0 y) := by
  unfold k0_pay1
  simp only [shapeCast_self]
  exact select_vec_apply _ _ _ y

/-! ## The grid: a point is a token -/

theorem coords_val (t : Fin grid0.N) : (grid0.coords t 0).val = t.val := by
  show t.val / grid0.stride 0 % grid0.bound 0 = t.val
  have hs : grid0.stride 0 = 1 := by decide
  have hb : grid0.bound 0 = 32768 := rfl
  have ht : t.val < 32768 := lt_of_lt_of_eq t.isLt N_0
  rw [hs, hb, Nat.div_one, Nat.mod_eq_of_lt ht]

/-! ## The three index maps, at any contents of the tables -/

theorem index0 (a : (pcfg0 (F := F)).Adm) (t : Fin (cfg0 a).N) :
    ((cfg0 a).win 0).index t = cc0_transform_0 k0_off1_inb numel1_S1 a.1 (grid0.coords t) := rfl
theorem index1 (a : (pcfg0 (F := F)).Adm) (t : Fin (cfg0 a).N) :
    ((cfg0 a).win 1).index t = cc0_transform_1 k0_off1_inb numel1_S1 a.1 (grid0.coords t) := rfl
theorem index2 (a : (pcfg0 (F := F)).Adm) (t : Fin (cfg0 a).N) :
    ((cfg0 a).win 2).index t = cc0_transform_2 (grid0.coords t) := rfl

/-- The table index a map reads at grid coordinates `i` is the token `n`. -/
theorem tix_eq (i : grid0.Coords) (n : Fin 32768) (hn : (i 0).val = n.val) (h1 : 0 < S1.numel) :
    (Rect.unit (s := S32768) ![(Scalar.indexCast (BitVec.ofNat 32 (i 0).val)).toNat] S1.size (k0_off1_inb i)).emb
      (Shape.Idx.first h1) = ix1 n := by
  funext a
  apply Fin.ext
  match a with
  | ⟨0, _⟩ =>
    show (BitVec.ofNat 32 (i 0).val).toNat + 1 * 0 = n.val
    have hi : (i 0).val < 32768 := (i 0).isLt
    rw [BitVec.toNat_ofNat, Nat.mod_eq_of_lt (by omega)]; omega

/-- The vocabulary window's block index: the first table's word at the token, unsigned, on axis 0. -/
theorem transform0_eq (pf : pre0.Contents (Elt F)) (i : grid0.Coords) (n : Fin 32768) (hn : (i 0).val = n.val) :
    cc0_transform_0 k0_off1_inb numel1_S1 pf i = ![((pf 0 (ix1 n) : BitVec 32)).toNat, 0, 0] := by
  show (![((pf 0 _ : BitVec 32)).toNat, 0, 0] : Fin 3 → Nat) = _
  exact congrArg (fun x : S32768.Idx => (![((pf 0 x : BitVec 32)).toNat, 0, 0] : Fin 3 → Nat)) (tix_eq i n hn _)

/-- The replacement window's block index: the second table's word at the token, made non-negative, on axis 0. -/
theorem transform1_eq (pf : pre0.Contents (Elt F)) (i : grid0.Coords) (n : Fin 32768) (hn : (i 0).val = n.val) :
    cc0_transform_1 k0_off1_inb numel1_S1 pf i = ![(IntOp.maxsi (pf 1 (ix1 n) : BitVec 32) 0#32).toNat, 0, 0] := by
  show (![(IntOp.maxsi (pf 1 _ : BitVec 32) 0#32).toNat, 0, 0] : Fin 3 → Nat) = _
  exact congrArg (fun x : S32768.Idx => (![(IntOp.maxsi (pf 1 x : BitVec 32) 0#32).toNat, 0, 0] : Fin 3 → Nat)) (tix_eq i n hn _)

/-- The output window's block index: the token, on axis 0. -/
theorem transform2_eq (i : grid0.Coords) (n : Fin 32768) (hn : (i 0).val = n.val) :
    cc0_transform_2 i = ![n.val, 0, 0] := by
  show (![(BitVec.ofNat 32 (i 0).val).toNat, 0, 0] : Fin 3 → Nat) = _
  have hi : (i 0).val < 32768 := (i 0).isLt
  rw [BitVec.toNat_ofNat, Nat.mod_eq_of_lt (by omega), hn]

/-! ## Where a block's element sits in its array -/

/-- Element `(0, 0, k)` of the vocabulary window's block at token `n` is element `(r, 0, k)` of the table, `r` the
    first table's word at `n`. The tables' contents are a variable `pf` here (the pipeline's own contents `a.1`, by
    `hpf`), so that the statement never mentions how a table was computed. -/
theorem blk0_emb (a : (pcfg0 (F := F)).Adm) (pf : pre0.Contents (Elt F)) (hpf : a.1 = pf)
    (t : Fin (cfg0 a).N) (y : S1x1x768.Idx) (n : Fin 32768) (hn : t.val = n.val)
    (r : Fin 50257) (hr : ((pf 0 (ix1 n) : BitVec 32)).toNat = r.val) :
    (((cfg0 a).win 0).blk t).view.emb y = (ix3 r (0 : Fin 1) (y 2) : S50257x1x768.Idx) := by
  subst hpf
  funext b
  apply Fin.ext
  have hi := congrFun (index0 a t)
  have ht := transform0_eq a.1 (grid0.coords t) n ((coords_val t).trans hn)
  have hy0 : (y 0).val = 0 := by have h := (y 0).isLt; have e : S1x1x768.size 0 = 1 := rfl; omega
  have hy1 : (y 1).val = 0 := by have h := (y 1).isLt; have e : S1x1x768.size 1 = 1 := rfl; omega
  have key := fun b => Pipeline.Window.rect_emb_val ((cfg0 a).win 0) t y b
  match b with
  | ⟨0, h0⟩ =>
    refine (key ⟨0, h0⟩).trans ?_
    rw [hi ⟨0, h0⟩, ht]
    show ((a.1 0 (ix1 n) : BitVec 32)).toNat * 1 + (y 0).val = r.val
    omega
  | ⟨1, h1⟩ =>
    refine (key ⟨1, h1⟩).trans ?_
    rw [hi ⟨1, h1⟩, ht]
    show 0 * 1 + (y 1).val = 0
    omega
  | ⟨2, h2⟩ =>
    refine (key ⟨2, h2⟩).trans ?_
    rw [hi ⟨2, h2⟩, ht]
    show 0 * 768 + (y 2).val = (y 2).val
    omega

/-- The same for the replacement window: row `max(rows[n], 0)`. -/
theorem blk1_emb (a : (pcfg0 (F := F)).Adm) (pf : pre0.Contents (Elt F)) (hpf : a.1 = pf)
    (t : Fin (cfg0 a).N) (y : S1x1x768.Idx) (n : Fin 32768) (hn : t.val = n.val)
    (r : Fin 1024) (hr : (IntOp.maxsi (pf 1 (ix1 n) : BitVec 32) 0#32).toNat = r.val) :
    (((cfg0 a).win 1).blk t).view.emb y = (ix3 r (0 : Fin 1) (y 2) : S1024x1x768.Idx) := by
  subst hpf
  funext b
  apply Fin.ext
  have hi := congrFun (index1 a t)
  have ht := transform1_eq a.1 (grid0.coords t) n ((coords_val t).trans hn)
  have hy0 : (y 0).val = 0 := by have h := (y 0).isLt; have e : S1x1x768.size 0 = 1 := rfl; omega
  have hy1 : (y 1).val = 0 := by have h := (y 1).isLt; have e : S1x1x768.size 1 = 1 := rfl; omega
  have key := fun b => Pipeline.Window.rect_emb_val ((cfg0 a).win 1) t y b
  match b with
  | ⟨0, h0⟩ =>
    refine (key ⟨0, h0⟩).trans ?_
    rw [hi ⟨0, h0⟩, ht]
    show (IntOp.maxsi (a.1 1 (ix1 n) : BitVec 32) 0#32).toNat * 1 + (y 0).val = r.val
    omega
  | ⟨1, h1⟩ =>
    refine (key ⟨1, h1⟩).trans ?_
    rw [hi ⟨1, h1⟩, ht]
    show 0 * 1 + (y 1).val = 0
    omega
  | ⟨2, h2⟩ =>
    refine (key ⟨2, h2⟩).trans ?_
    rw [hi ⟨2, h2⟩, ht]
    show 0 * 768 + (y 2).val = (y 2).val
    omega

/-- Element `(0, 0, k)` of the output window's block at token `n` is element `(n, 0, k)` of the output. -/
theorem blk2_emb (a : (pcfg0 (F := F)).Adm) (t : Fin (cfg0 a).N) (y : S1x1x768.Idx) (n : Fin 32768) (hn : t.val = n.val) :
    (((cfg0 a).win 2).blk t).view.emb y = (ix3 n (0 : Fin 1) (y 2) : S32768x1x768.Idx) := by
  funext b
  apply Fin.ext
  have hi := congrFun (index2 a t)
  have ht := transform2_eq (grid0.coords t) n ((coords_val t).trans hn)
  have hy0 : (y 0).val = 0 := by have h := (y 0).isLt; have e : S1x1x768.size 0 = 1 := rfl; omega
  have hy1 : (y 1).val = 0 := by have h := (y 1).isLt; have e : S1x1x768.size 1 = 1 := rfl; omega
  have key := fun b => Pipeline.Window.rect_emb_val ((cfg0 a).win 2) t y b
  match b with
  | ⟨0, h0⟩ =>
    refine (key ⟨0, h0⟩).trans ?_
    rw [hi ⟨0, h0⟩, ht]
    show n.val * 1 + (y 0).val = n.val
    omega
  | ⟨1, h1⟩ =>
    refine (key ⟨1, h1⟩).trans ?_
    rw [hi ⟨1, h1⟩, ht]
    show 0 * 1 + (y 1).val = 0
    omega
  | ⟨2, h2⟩ =>
    refine (key ⟨2, h2⟩).trans ?_
    rw [hi ⟨2, h2⟩, ht]
    show 0 * 768 + (y 2).val = (y 2).val
    omega

end Cert.KernelIdeal.Blocks

end
-- ==== Proof.KerArray.lean ====
/-
  THE ARRAY THE KERNEL LEAVES, AND WHAT THE HOST MAKES OF IT.

  Point `n` of the grid writes back row `n` of the output `[32768, 1, 768]`, and the 32768 rows tile it: so the output
  ends as ONE function of the token, `tokOut` — at `(n, 0, k)` the replacement table's entry `(max(rows[n], 0), 0, k)`
  where the row word `rows[n]` is not negative, else the vocabulary table's entry `(ids[n], 0, k)`. The two tables the
  blocks are cut from are the float arguments with a unit axis inserted; after the region the host only drops that
  axis and splits the token axis into `[8, 4096]`.

  The two index bounds used here hold at every token: a word of the first prefetched table is a token id, below 50257
  under the precondition; a word of the second is a row, whose larger with 0 is below 1024.
-/
import proofs.«422221_j4063039062251_2_alg».proof.Proof.KerBlocks
import Idealize.ShloMosaic.Lib.StableHlo.Run

set_option maxRecDepth 16384

noncomputable section

namespace Cert.KernelIdeal.Arr

open Cert.KernelIdeal Cert.KernelIdeal.Gen Cert.KernelIdeal.Tables Cert.KernelIdeal.Blocks
open Idealize.ShloMosaic Idealize.ShloMosaic.TcCoe Idealize.SL.Sem
open Idealize.ShloMosaic.Pipeline (Dat)
open Idealize.ShloMosaic.ValueIdx Cert.OutSpec

variable {F : FTy → Type} [FloatOps F] (m : (ℓ : Loc nD τ sig) → Buf (Elt F) ℓ)

/-- A word below 50257 names its own vocabulary row; a word whose larger with 0 is below 1024 names that replacement
    row (the clamps of `baseRow` and `trainRow` do nothing). Stated over a variable word. -/
theorem baseRow_val {v : BitVec 32} (h : v.toNat < 50257) : v.toNat = (baseRow v).val := by
  unfold baseRow; show _ = min _ 50256; omega
theorem trainRow_val {r : BitVec 32} (h : (IntOp.maxsi r 0#32).toNat < 1024) :
    (IntOp.maxsi r 0#32).toNat = (trainRow r).val := by
  unfold trainRow; show _ = min _ 1023; omega

/-- The two prefetched tables, as arrays of words indexed by the token. -/
abbrev t0 : S32768.Idx → BitVec 32 := tbl m 0
abbrev t1 : S32768.Idx → BitVec 32 := tbl m 1

/-- The vocabulary block handed to the body at token `n`, at an element: row `ids[n]` of the table. -/
theorem iblk0_apply (hO : Ok m) (c : Dev nD) (t : Fin (cfgM m hO).N) (y : S1x1x768.Idx) (n : Fin 32768) (hn : t.val = n.val)
    (hw : (t0 m (ix1 n)).toNat < 50257) :
    iblk m hO c 0 t y = V m c main_v18 (ix3 (baseRow (t0 m (ix1 n))) (0 : Fin 1) (y 2)) := by
  unfold iblk
  refine (View.read_apply (v := (((cfgM m hO).win 0).blk t).view) (V m c (Pipeline.arrRef spec0 0)) y).trans ?_
  refine (cast_eq _ _).trans ?_
  refine congrArg (V m c main_v18) ?_
  exact blk0_emb (adm m hO) (tbl m) rfl t y n hn (baseRow (t0 m (ix1 n))) (baseRow_val hw)

/-- The replacement block handed to the body at token `n`, at an element: row `max(rows[n], 0)` of the table. -/
theorem iblk1_apply (hO : Ok m) (c : Dev nD) (t : Fin (cfgM m hO).N) (y : S1x1x768.Idx) (n : Fin 32768) (hn : t.val = n.val)
    (hw : (IntOp.maxsi (t1 m (ix1 n)) 0#32).toNat < 1024) :
    iblk m hO c 1 t y = V m c main_v19 (ix3 (trainRow (t1 m (ix1 n))) (0 : Fin 1) (y 2)) := by
  unfold iblk
  refine (View.read_apply (v := (((cfgM m hO).win 1).blk t).view) (V m c (Pipeline.arrRef spec0 1)) y).trans ?_
  refine (cast_eq _ _).trans ?_
  refine congrArg (V m c main_v19) ?_
  exact blk1_emb (adm m hO) (tbl m) rfl t y n hn (trainRow (t1 m (ix1 n))) (trainRow_val hw)

/-- THE OUTPUT ARRAY `[32768, 1, 768]` the kernel leaves: element `(n, 0, k)` is the replacement table's at row
    `max(rows[n], 0)` where `rows[n]` is not negative, else the vocabulary table's at row `ids[n]`; both tables as the
    region finds them, with the row clamped into the table so that the function is total. -/
def tokOut (c : Dev nD) : S32768x1x768.Idx → Elt F .f32 := fun j =>
  Scalar.select (IntOp.cmpi .sge (t1 m (ix1 (j 0))) 0#32)
    (V m c main_v19 (ix3 (trainRow (t1 m (ix1 (j 0)))) (0 : Fin 1) (j 2)))
    (V m c main_v18 (ix3 (baseRow (t0 m (ix1 (j 0)))) (0 : Fin 1) (j 2)))

/-- What the output's staging buffer holds after the body at token `n`, at an element. -/
theorem outsAt_apply (hO : Ok m) (c : Dev nD) (t : Fin (cfgM m hO).N) (y : S1x1x768.Idx) (n : Fin 32768) (hn : t.val = n.val)
    (hw0 : (t0 m (ix1 n)).toNat < 50257) (hw1 : (IntOp.maxsi (t1 m (ix1 n)) 0#32).toNat < 1024) :
    outsAt0 m hO c t y = tokOut m c (ix3 n (0 : Fin 1) (y 2)) := by
  unfold outsAt0
  rw [out_A c (grid0.coords t) _ _ _ _ _ _ (iblk m hO c 0 t) (iblk m hO c 1 t) (tbl m 0) (tbl m 1) n ((coords_val t).trans hn)]
  refine (pay_apply _ _ _ y).trans ?_
  rw [iblk1_apply m hO c t y n hn hw1, iblk0_apply m hO c t y n hn hw0]
  rfl

/-- A grid point's token. -/
def tokOf (hO : Ok m) (t : Fin (cfgM m hO).N) : Fin 32768 := ⟨t.val, lt_of_lt_of_eq t.isLt N_0⟩

/-- The first table's word at a token is a token id, so below 50257 when the ids lie in the vocabulary. -/
theorem t0_lt (hids : IdsInVocab (idsOf m)) (n : Fin 32768) : (t0 m (ix1 n)).toNat < 50257 := by
  obtain ⟨y', hy'⟩ := tbl0_mem m (ix1 n)
  exact lt_of_eq_of_lt (congrArg BitVec.toNat hy')
    (Cert.IndexWords.toNat_lt_of_range 50257 (by decide) (hids y').1 (hids y').2)

/-- The second table's word at a token is a row, so its larger with 0 is below 1024. -/
theorem t1_lt (n : Fin 32768) : (IntOp.maxsi (t1 m (ix1 n)) 0#32).toNat < 1024 :=
  (tbl1_isRow m (ix1 n)).max_lt

/-- WHAT POINT `t` WRITES BACK is block `t` of `tokOut`. -/
theorem flushed_eq (hO : Ok m) (hids : IdsInVocab (idsOf m)) (c : Dev nD) (t : Fin (cfgM m hO).N) :
    (dats m hO 0 c).flushed 2 t = (((cfgM m hO).win 2).blk t).view.read (Elt F) (tokOut m c) := by
  show ((cfgM m hO).win 2).cut ((cfgM m hO).grid.coords t) ((dats m hO 0 c).after 2 t) = _
  rw [after0_2]
  funext y
  refine Eq.trans ?_ (((View.read_apply (v := (((cfgM m hO).win 2).blk t).view) (tokOut m c) y).trans (cast_eq _ _)).symm)
  rw [blk2_emb (adm m hO) t y (tokOf m hO t) rfl]
  exact outsAt_apply m hO c t y (tokOf m hO t) rfl (t0_lt m hids _) (t1_lt m _)

/-- Every element `(n, 0, k)` of the output lies in the block of the point `n`. -/
theorem cover (hO : Ok m) (i : S32768x1x768.Idx) :
    ∃ t : Fin (cfgM m hO).N, ((cfgM m hO).win 2).flush t = true ∧ i ∈ (((cfgM m hO).win 2).blk t).view.set := by
  have ht : (i 0).val < (cfgM m hO).N := lt_of_lt_of_eq (i 0).isLt N_0.symm
  refine ⟨⟨(i 0).val, ht⟩, flush0_2 (adm m hO) _, ?_⟩
  have hi1 : (i 1).val = 0 := by have h := (i 1).isLt; have e : S32768x1x768.size 1 = 1 := rfl; omega
  have e := blk2_emb (adm m hO) ⟨(i 0).val, ht⟩ (ix3 (0 : Fin 1) (0 : Fin 1) (i 2)) ⟨(i 0).val, (i 0).isLt⟩ rfl
  have hi : i = (ix3 (⟨(i 0).val, (i 0).isLt⟩ : Fin 32768) (0 : Fin 1) (i 2) : S32768x1x768.Idx) := by
    funext a; apply Fin.ext
    match a with
    | ⟨0, _⟩ => rfl
    | ⟨1, _⟩ => exact hi1
    | ⟨2, _⟩ => rfl
  have hmem := View.emb_mem_set (((cfgM m hO).win 2).blk ⟨(i 0).val, ht⟩).view (ix3 (0 : Fin 1) (0 : Fin 1) (i 2))
  rw [e] at hmem
  exact (congrArg (fun x : S32768x1x768.Idx => x ∈ (((cfgM m hO).win 2).blk ⟨(i 0).val, ht⟩).view.set) hi).mpr hmem

/-- THE OUTPUT ARRAY after the run is `tokOut`. -/
theorem final (hO : Ok m) (hids : IdsInVocab (idsOf m)) (c : Dev nD) :
    (dats m hO 0 c).arrAt 2 (cfgM m hO).N = tokOut m c :=
  (dats m hO 0 c).arrAt_eq_of_cover 2 (tokOut m c) (fun t _ => flushed_eq m hO hids c t) (cover m hO)

/-! ## The two tables the blocks are cut from, and the lines after the region -/

/-- The vocabulary table as the region finds it: the argument `[50257, 768]` with a unit axis inserted. -/
theorem V18_eq (c : Dev nD) : (V m c main_v18 : S50257x1x768.Idx → Elt F .f32)
    = shapeCast S50257x1x768 (m ((c : Thread nD τ).loc main_arg2)) shapeCasts_S50257x768_S50257x1x768 := by
  show StableHlo.after hostOps0 (fun b => m (c, b)) (Proc.devRef .tc main_v18) = _
  after_results_simp
  rfl

/-- The replacement table as the region finds it: the argument `[1024, 768]` with a unit axis inserted. -/
theorem V19_eq (c : Dev nD) : (V m c main_v19 : S1024x1x768.Idx → Elt F .f32)
    = shapeCast S1024x1x768 (m ((c : Thread nD τ).loc main_arg3)) shapeCasts_S1024x768_S1024x1x768 := by
  show StableHlo.after hostOps0 (fun b => m (c, b)) (Proc.devRef .tc main_v19) = _
  after_results_simp
  rfl

theorem V18_apply (c : Dev nD) (r : Fin 50257) (k : Fin 768) :
    V m c main_v18 (ix3 r (0 : Fin 1) k) = m ((c : Thread nD τ).loc main_arg2) (ix2 r k) := by
  rw [V18_eq]
  refine shapeCast_apply _ _ _ _ ?_
  refine (Shape.rowMajor_val_two _).trans ((Shape.rowMajor_val_three _).trans ?_).symm
  show (r.val * 1 + 0) * 768 + k.val = r.val * 768 + k.val
  omega

theorem V19_apply (c : Dev nD) (r : Fin 1024) (k : Fin 768) :
    V m c main_v19 (ix3 r (0 : Fin 1) k) = m ((c : Thread nD τ).loc main_arg3) (ix2 r k) := by
  rw [V19_eq]
  refine shapeCast_apply _ _ _ _ ?_
  refine (Shape.rowMajor_val_two _).trans ((Shape.rowMajor_val_three _).trans ?_).symm
  show (r.val * 1 + 0) * 768 + k.val = r.val * 768 + k.val
  omega

/-- The lines after the region: the result is the output array with its unit axis dropped and its token axis split. -/
theorem tail_eq (hO : Ok m) (hids : IdsInVocab (idsOf m)) (c : Dev nD) :
    Pipeline.afterTail pcfgs (fun _ => adm m hO) (dats m hO) 0 (V0 m) [hostOps1] c main_v22
      = shapeCast S8x4096x768 (shapeCast S32768x768 (tokOut m c) shapeCasts_S32768x1x768_S32768x768) shapeCasts_S32768x768_S8x4096x768 := by
  unfold Pipeline.afterTail
  show StableHlo.after hostOps1 _ (Proc.devRef .tc main_v22) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v20) = tokOut m c :=
    (Pipeline.withArrays_arr spec0 winFacts0.arr_inj c _ _ 2).trans (final m hO hids c)
  rw [hw]
  rfl

end Cert.KernelIdeal.Arr

end
-- ==== Proof.KerValue.lean ====
/-
  THE KERNEL'S RESULT IS THE SPECIFICATION.

  The result `[8, 4096, 768]` at `(b, s, k)` is the output array at `(n, 0, k)` with `n = 4096 b + s` the token's flat
  position (the host's two reshapes keep the row-major order). There the first prefetched table holds `ids[b, s]` and the
  second `rows[b, s]` (both are reshapes of the `[8, 4096]` arrays), and the two float tables with a unit axis inserted
  hold the arguments' entries: element by element this is the specification of Proof/OutSpec.lean.
-/
import proofs.«422221_j4063039062251_2_alg».proof.Proof.KerArray

set_option maxRecDepth 16384

noncomputable section

namespace Cert.KernelIdeal.Result

open Cert.KernelIdeal Cert.KernelIdeal.Gen Cert.KernelIdeal.Tables Cert.KernelIdeal.Blocks Cert.KernelIdeal.Arr
open Idealize.ShloMosaic Idealize.ShloMosaic.TcCoe Idealize.SL.Sem
open Idealize.ShloMosaic.Pipeline (Dat)
open Idealize.ShloMosaic.ValueIdx Cert.OutSpec

variable {F : FTy → Type} [FloatOps F] (m : (ℓ : Loc nD τ sig) → Buf (Elt F) ℓ) (ρ : Dev nD → PrngReg)

/-- The first table at the flat position of token `(b, s)` is `ids[b, s]`. -/
theorem t0_tok (b : Fin 8) (s : Fin 4096) (n : Fin 32768) (hn : n.val = b.val * 4096 + s.val) :
    t0 m (ix1 n) = idsOf m (ix2 b s) := by
  show (tbl m 0 : S32768.Idx → BitVec 32) (ix1 n) = _
  rw [tbl0_eq]
  refine shapeCast_apply _ _ _ _ ?_
  refine (Shape.rowMajor_val_two _).trans ((Shape.rowMajor_val_one _).trans ?_).symm
  exact hn

/-- The second table at the flat position of token `(b, s)` is `rows[b, s]`. -/
theorem t1_tok (b : Fin 8) (s : Fin 4096) (n : Fin 32768) (hn : n.val = b.val * 4096 + s.val) :
    t1 m (ix1 n) = Cert.RowTable.rows (idsOf m) (tuneOf m) (ix2 b s) := by
  show (tbl m 1 : S32768.Idx → BitVec 32) (ix1 n) = _
  rw [tbl1_eq]
  refine shapeCast_apply _ _ _ _ ?_
  refine (Shape.rowMajor_val_two _).trans ((Shape.rowMajor_val_one _).trans ?_).symm
  exact hn

/-- The output array at `(n, 0, k)`. -/
theorem tokOut_apply (c : Dev nD) (n : Fin 32768) (k : Fin 768) :
    tokOut m c (ix3 n (0 : Fin 1) k) = Scalar.select (IntOp.cmpi .sge (t1 m (ix1 n)) 0#32)
      (V m c main_v19 (ix3 (trainRow (t1 m (ix1 n))) (0 : Fin 1) k))
      (V m c main_v18 (ix3 (baseRow (t0 m (ix1 n))) (0 : Fin 1) k)) := rfl

/-- The specification at `(b, s, k)`. -/
theorem out_apply {α : Type} (ids : IVec Cert.RowTable.STok 32) (tune : IVec Cert.RowTable.STune 32)
    (base : SBase.Idx → α) (train : STrain.Idx → α) (b : Fin 8) (s : Fin 4096) (k : Fin 768) :
    Cert.OutSpec.out ids tune base train (ix3 b s k)
      = Scalar.select (IntOp.cmpi .sge (Cert.RowTable.rows ids tune (ix2 b s)) 0#32)
          (train (ix2 (trainRow (Cert.RowTable.rows ids tune (ix2 b s))) k))
          (base (ix2 (baseRow (ids (ix2 b s))) k)) := rfl

/-- THE RESULT, element by element, is the specification of the arguments. -/
theorem result_eq (c : Dev nD) :
    shapeCast S8x4096x768 (shapeCast S32768x768 (tokOut m c) shapeCasts_S32768x1x768_S32768x768) shapeCasts_S32768x768_S8x4096x768
      = Cert.OutSpec.out (m ((c : Thread nD τ).loc main_arg0)) (m ((c : Thread nD τ).loc main_arg1))
          (m ((c : Thread nD τ).loc main_arg2)) (m ((c : Thread nD τ).loc main_arg3)) := by
  obtain rfl : c = 0 := Subsingleton.elim _ _
  funext y
  obtain ⟨b, s, k, rfl⟩ : ∃ (b : Fin 8) (s : Fin 4096) (k : Fin 768), y = ix3 b s k := ⟨y 0, y 1, y 2, eq_ix3 y⟩
  have hlt : b.val * 4096 + s.val < 32768 := by have := b.isLt; have := s.isLt; omega
  have e1 : shapeCast S8x4096x768 (shapeCast S32768x768 (tokOut m 0) shapeCasts_S32768x1x768_S32768x768) shapeCasts_S32768x768_S8x4096x768 (ix3 b s k)
      = shapeCast S32768x768 (tokOut m 0) shapeCasts_S32768x1x768_S32768x768 (ix2 (⟨b.val * 4096 + s.val, hlt⟩ : Fin 32768) k) := by
    refine shapeCast_apply _ _ _ _ ?_
    refine (Shape.rowMajor_val_two _).trans ((Shape.rowMajor_val_three _).trans ?_).symm
    rfl
  have e2 : shapeCast S32768x768 (tokOut m 0) shapeCasts_S32768x1x768_S32768x768 (ix2 (⟨b.val * 4096 + s.val, hlt⟩ : Fin 32768) k)
      = tokOut m 0 (ix3 (⟨b.val * 4096 + s.val, hlt⟩ : Fin 32768) (0 : Fin 1) k) := by
    refine shapeCast_apply _ _ _ _ ?_
    refine (Shape.rowMajor_val_three _).trans ((Shape.rowMajor_val_two _).trans ?_).symm
    show (b.val * 4096 + s.val) * 768 + k.val = ((b.val * 4096 + s.val) * 1 + 0) * 768 + k.val
    omega
  rw [e1, e2, tokOut_apply, t1_tok m b s _ rfl, t0_tok m b s _ rfl, V19_apply, V18_apply]
  exact (out_apply _ _ _ _ b s k).symm

/-- THE KERNEL'S RUN, READ: on every device, from any memory with zero counters whose token ids lie in the vocabulary,
    every weakly fair execution terminates with the result at the specification of the arguments and the arguments
    unchanged. -/
theorem run_out (hO : Ok m) (hids : IdsInVocab (idsOf m)) :
    θ_run defs (onTc (τ := τ) (main (F := F))) ⟨m, fun _ => 0, ρ⟩ (fun r => ∀ c : Dev nD,
      r.2.mem ((c.tc : Thread nD τ).loc main_v22)
        = Cert.OutSpec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (by decide : main_v22 ∈ Pipeline.restRefs sig spec0)).trans ((tail_eq m hO hids c).trans (result_eq m c)),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KernelIdeal.Result

end
-- ==== Proof.LibRowTake.lean ====
/-
  ROWS OF A TABLE TAKEN AT A RANK-2 ARRAY OF INDICES, READ AT AN ELEMENT.

  `x[idx]` of a table `x : [N, D]` at an integer array `idx : [R, C]` lowers to a gather over the indices laid out as
  `[R, C, 1]` (one index vector of length one per token): the table's axis 0 is collapsed (slice size 1) and is the one
  axis the start index names, axis 1 is taken whole (slice size `D`) and becomes the result's one offset axis, axis 2;
  the result is `[R, C, D]`. This file reads that gather at one element, generically in the four sizes, the index width
  and the element type: element `(r, c, k)` is the table at row `idx[r, c, 0]`, read as a signed integer and clamped into
  `[0, N − 1]` (a gather clamps every start index so that its slice fits), and column `k`.
-/
import Idealize.ShloMosaic.PureOps
import Idealize.ShloMosaic.Lib.ValueIdx

noncomputable section

namespace Cert.LibRowTake

open Idealize.ShloMosaic Idealize.ShloMosaic.ValueIdx

/-- The dimension numbers of `x[idx]` for `x : [N, D]`, start indices `[R, C, 1]`, result `[R, C, D]`. The conditions
    `wf` are decided on a program's literal sizes. -/
abbrev rowTakeDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` of result index `(r, c, k)`. -/
abbrev tokIdx {R C D : Nat} (y : (⟨3, ![R, C, D]⟩ : Shape).Idx) : (⟨3, ![R, C, 1]⟩ : Shape).Idx :=
  fun a => match a with | ⟨0, _⟩ => y 0 | ⟨1, _⟩ => y 1 | ⟨2, _⟩ => ⟨0, Nat.one_pos⟩

/-- THE ROW TAKE READ AT `(r, c, k)`: the table at row `idx[r, c, 0]`, read signed and clamped into `[0, N − 1]`, and
    column `k`. On the table's axis 0 the operand index is the clamped start (no batching axis; the axis is collapsed, so
    it carries no offset); on axis 1 the start is `0` (the start index does not name it) and the offset is the result's
    coordinate on its offset axis. -/
theorem rowTake_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rowTakeDims N D R C wf) x idx y
      = x (ix2 ⟨min (idx (tokIdx y)).toInt.toNat (N - 1), by omega⟩ (y 2)) := by
  unfold Host.gather
  congr 1
  funext a
  refine Fin.ext ?_
  match a with
  | ⟨0, _⟩ =>
    show (rowTakeDims N D R C wf).start y idx 0 + (rowTakeDims N D R C wf).batchCoord y 0
      + (rowTakeDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R C wf).startIndexMap from List.mem_singleton.mpr rfl)]
    have hsi : (rowTakeDims N D R C wf).siIdx y ⟨List.idxOf (0 : Fin 2) (rowTakeDims N D R C wf).startIndexMap,
        List.idxOf_lt_length_iff.2 (List.mem_singleton.mpr rfl)⟩ = tokIdx y := by
      funext b; refine Fin.ext ?_
      match b with
      | ⟨0, _⟩ => rfl
      | ⟨1, _⟩ => rfl
      | ⟨2, _⟩ => rfl
    rw [hsi]
    rfl
  | ⟨1, _⟩ =>
    show (rowTakeDims N D R C wf).start y idx 1 + (rowTakeDims N D R C wf).batchCoord y 1
      + (rowTakeDims N D R C wf).offCoord y 1 = _
    rw [GatherDims.batchCoord_eq_zero _ _ _ List.not_mem_nil]
    unfold GatherDims.start
    rw [dif_neg (show (1 : Fin 2) ∉ (rowTakeDims N D R C wf).startIndexMap from
      (show ¬ ((1 : Fin 2) ∈ ([0] : List (Fin 2))) by decide))]
    unfold GatherDims.offCoord
    rw [dif_pos (show (1 : Fin 2) ∈ (rowTakeDims N D R C wf).sKept from (GatherDims.mem_sKept _ _).mpr
      ⟨(show ¬ ((1 : Fin 2) ∈ ([0] : List (Fin 2))) by decide), List.not_mem_nil⟩)]
    simp only [Nat.add_zero, Nat.zero_add]
    rfl

/-- The same for any record equal to `rowTakeDims N D R C wf`: a program prints its dimension numbers as a record of its
    own with literal sizes, which is this one by `rfl`. -/
theorem rowTake_apply_of {α : Type} {N D R C w : Nat} (hN : 0 < N)
    {wf : GatherDims.WF ⟨2, ![N, D]⟩ ⟨3, ![R, C, 1]⟩ ⟨3, ![R, C, D]⟩ [2] [0] [] [0] [] 2 ![1, D]}
    (d : GatherDims ⟨2, ![N, D]⟩ ⟨3, ![R, C, 1]⟩ ⟨3, ![R, C, D]⟩) (hd : d = rowTakeDims N D R C wf)
    (x : (⟨2, ![N, D]⟩ : Shape).Idx → α) (idx : IVec ⟨3, ![R, C, 1]⟩ w) (y : (⟨3, ![R, C, D]⟩ : Shape).Idx) :
    Host.gather d x idx y
      = x (ix2 ⟨min (idx (tokIdx y)).toInt.toNat (N - 1), by omega⟩ (y 2)) := by
  subst hd; exact rowTake_apply hN wf x idx y

end Cert.LibRowTake

end
-- ==== Proof.RefValue.lean ====
/-
  THE REFERENCE'S RESULT, ELEMENT BY ELEMENT.

  The reference computes, for token `(b, s)` with id `v = ids[b, s]` and row `r = rows[b, s]` (the id → row table read
  at the id), the vector `where(r ≥ 0, train[max(r, 0)], base[v])`. Each of the two table reads is a gather of whole
  rows, which wraps a negative index (counts it from the end) and then clamps it into the table. This file reads the
  reference's last value at an element `(b, s, k)` and shows it is the specification's element:

  * the mask at `(b, s, k)` is the test `r ≥ 0` at the token `(b, s)`, the broadcasts only repeating it along `k`;
  * for an id inside the vocabulary the wrap does nothing and the signed reading is the unsigned one, so the base read
    is `base[v, k]`;
  * where `r ≥ 0`, `max(r, 0) = r`, the wrap again does nothing, and the train read is `train[r, k]`;
  * where `r < 0` the select takes the base entry on both sides, whatever the train read is.

  No arithmetic on the table entries occurs: they are only moved.
-/
import proofs.«422221_j4063039062251_2_alg».proof.Proof.RefReadPatched
import proofs.«422221_j4063039062251_2_alg».proof.Proof.OutSpec
import proofs.«422221_j4063039062251_2_alg».proof.Proof.LibRowTake
import proofs.«422221_j4063039062251_2_alg».proof.Proof.IndexWords
import Idealize.ShloMosaic.PureOps.Ideal
import Idealize.ShloMosaic.Lib.ValueIdx

noncomputable section

namespace Cert.RefValue

open Idealize.ShloMosaic Idealize.ShloMosaic.ValueIdx
open Cert.ReferenceIdeal Cert.ReferenceIdeal.Gen Cert.ReferenceIdeal.ReadP

/-! ## The rows -/

/-- The reference's row array is the row table's: the same scatter and the same gather, term for term (the dimension
    records carry the same numbers; only their names and the proofs of their side conditions differ). -/
theorem rows_eq (ids : IVec S8x4096 32) (tune : IVec S1024 32) :
    val_main_v22 (F := Ideal) ids tune = Cert.RowTable.rows ids tune := by
  unfold val_main_v22 val_main_v21 val_main_v20 val_main_v19 val_main_v18 val_main_v17 val_main_v16
    val_main_c_4 val_main_c_5 val_main_v8 val_main_v7 val_main_v6 val_main_v5 val_main_v4 val_main_v3 val_main_v2
    val_main_v1 val_main_v0 val_main_c val_main_c_0 val_main_c_1
    Cert.RowTable.rows Cert.RowTable.id2row Cert.RowTable.wrapNeg
  rfl

/-! ## Indices: the token of an element -/

/-- The mask's two broadcasts read the test at the element's token. -/
theorem maskIdx_eq (y : S8x4096x768.Idx) : idx_main_v34 (idx_main_call0_v0 y) = Cert.OutSpec.tok y :=
  funext fun a => Fin.ext (by match a with | ⟨0, _⟩ => rfl | ⟨1, _⟩ => rfl)

/-- The start index `[b, s, 0]` of a row read is broadcast from the token `(b, s)`. -/
theorem startIdx14_eq (y : S8x4096x768.Idx) :
    idx_main_v14 (Cert.LibRowTake.tokIdx y) = Cert.OutSpec.tok y :=
  funext fun a => Fin.ext (by match a with | ⟨0, _⟩ => rfl | ⟨1, _⟩ => rfl)

theorem startIdx32_eq (y : S8x4096x768.Idx) :
    idx_main_v32 (Cert.LibRowTake.tokIdx y) = Cert.OutSpec.tok y :=
  funext fun a => Fin.ext (by match a with | ⟨0, _⟩ => rfl | ⟨1, _⟩ => rfl)

/-! ## The mask -/

/-- The mask at `(b, s, k)` is the test "the token's row is not negative". -/
theorem mask_apply (ids : IVec S8x4096 32) (tune : IVec S1024 32) (y : S8x4096x768.Idx) :
    val_main_call0_v0 (F := Ideal) ids tune y
      = IntOp.cmpi .sge (Cert.RowTable.rows ids tune (Cert.OutSpec.tok y)) 0#32 := by
  rw [val_main_call0_v0_apply, val_main_v34_apply, val_main_v24_apply, val_main_v23_apply, val_main_c_6_apply,
    rows_eq, maskIdx_eq]

/-! ## The base read -/

/-- An id inside the vocabulary is not counted from the end: the wrap returns it. -/
theorem wrap_ids (ids : IVec S8x4096 32) (hids : Cert.OutSpec.IdsInVocab ids) (t : S8x4096.Idx) :
    val_main_v13 (F := Ideal) ids t = ids t := by
  rw [val_main_v13_apply, val_main_v10_apply, val_main_v9_apply, val_main_c_2_apply,
    Cert.IndexWords.slt_zero_of_sge (hids t).1, select_zero]

/-- The base read at `(b, s, k)` is `base[ids[b, s], k]`. -/
theorem base_apply (ids : IVec S8x4096 32) (base : S50257x768.Idx → EReal) (hids : Cert.OutSpec.IdsInVocab ids)
    (y : S8x4096x768.Idx) :
    val_main_v15 (F := Ideal) ids base y
      = base (ix2 (Cert.OutSpec.baseRow (ids (Cert.OutSpec.tok y))) (y 2)) := by
  unfold val_main_v15
  refine (Cert.LibRowTake.rowTake_apply_of (N := 50257) (D := 768) (R := 8) (C := 4096) (by norm_num) _ rfl base
    (val_main_v14 (F := Ideal) ids) y).trans ?_
  refine congrArg base (congrArg (fun r : Fin 50257 => (ix2 r (y 2) : S50257x768.Idx)) (Fin.ext ?_))
  have hw : val_main_v14 (F := Ideal) ids (Cert.LibRowTake.tokIdx y) = ids (Cert.OutSpec.tok y) := by
    rw [val_main_v14_apply, startIdx14_eq, wrap_ids ids hids]
  show min (val_main_v14 (F := Ideal) ids (Cert.LibRowTake.tokIdx y)).toInt.toNat (50257 - 1)
    = min (ids (Cert.OutSpec.tok y)).toNat 50256
  rw [hw, Cert.IndexWords.toInt_toNat_of_sge (hids (Cert.OutSpec.tok y)).1]

/-! ## The train read -/

/-- A row that is not negative survives the clamp below at 0 and the wrap. -/
theorem wrap_rows (ids : IVec S8x4096 32) (tune : IVec S1024 32) (t : S8x4096.Idx)
    (hm : IntOp.cmpi .sge (Cert.RowTable.rows ids tune t) 0#32 = 1#1) :
    val_main_v31 (F := Ideal) ids tune t = Cert.RowTable.rows ids tune t := by
  have h26 : val_main_v26 (F := Ideal) ids tune t = Cert.RowTable.rows ids tune t := by
    rw [val_main_v26_apply, val_main_v25_apply, val_main_c_7_apply, rows_eq,
      Cert.IndexWords.maxsi_zero_of_sge hm]
  rw [val_main_v31_apply, val_main_v28_apply, val_main_v27_apply, val_main_c_8_apply, h26,
    Cert.IndexWords.slt_zero_of_sge hm, select_zero]

/-- Where the token's row is not negative, the train read at `(b, s, k)` is `train[rows[b, s], k]`. -/
theorem train_apply (ids : IVec S8x4096 32) (tune : IVec S1024 32) (train : S1024x768.Idx → EReal)
    (y : S8x4096x768.Idx)
    (hm : IntOp.cmpi .sge (Cert.RowTable.rows ids tune (Cert.OutSpec.tok y)) 0#32 = 1#1) :
    val_main_v33 (F := Ideal) ids tune train y
      = train (ix2 (Cert.OutSpec.trainRow (Cert.RowTable.rows ids tune (Cert.OutSpec.tok y))) (y 2)) := by
  unfold val_main_v33
  refine (Cert.LibRowTake.rowTake_apply_of (N := 1024) (D := 768) (R := 8) (C := 4096) (by norm_num) _ rfl train
    (val_main_v32 (F := Ideal) ids tune) y).trans ?_
  refine congrArg train (congrArg (fun r : Fin 1024 => (ix2 r (y 2) : S1024x768.Idx)) (Fin.ext ?_))
  have hw : val_main_v32 (F := Ideal) ids tune (Cert.LibRowTake.tokIdx y)
      = Cert.RowTable.rows ids tune (Cert.OutSpec.tok y) := by
    rw [val_main_v32_apply, startIdx32_eq, wrap_rows ids tune _ hm]
  show min (val_main_v32 (F := Ideal) ids tune (Cert.LibRowTake.tokIdx y)).toInt.toNat (1024 - 1)
    = min (IntOp.maxsi (Cert.RowTable.rows ids tune (Cert.OutSpec.tok y)) 0#32).toNat 1023
  rw [hw, Cert.IndexWords.toInt_toNat_of_sge hm, Cert.IndexWords.maxsi_zero_of_sge hm]

/-! ## The result -/

/-- THE REFERENCE'S RESULT IS THE SPECIFICATION: at every element, the replacement row's entry where the token's row is
    not negative, the vocabulary row's entry otherwise. -/
theorem ref_eq_out (ids : IVec Cert.ReferenceIdeal.S8x4096 32) (tune : IVec Cert.ReferenceIdeal.S1024 32)
    (base : Cert.ReferenceIdeal.S50257x768.Idx → EReal) (train : Cert.ReferenceIdeal.S1024x768.Idx → EReal)
    (hids : Cert.OutSpec.IdsInVocab ids) :
    Cert.ReferenceIdeal.ReadP.val_main_v35 (F := Ideal) ids tune base train = Cert.OutSpec.out ids tune base train := by
  funext y
  rw [val_main_v35_apply, mask_apply]
  unfold Cert.OutSpec.out
  by_cases hm : IntOp.cmpi .sge (Cert.RowTable.rows ids tune (Cert.OutSpec.tok y)) 0#32 = 1#1
  · rw [hm, select_one, select_one, train_apply ids tune train y hm]
  · rw [eq_zero_of_ne_one hm, select_zero, select_zero, base_apply ids base hids y]

end Cert.RefValue

end
-- ==== Proof.lean ====
/-
  AN EMBEDDING LOOKUP WITH OVERRIDDEN ROWS: the kernel against its reference.

  For 32768 tokens with ids in a vocabulary of 50257, of which up to 1024 "tune ids" have a replacement row: the output
  vector of a token is the replacement row of its id when the id is a tune id, and the vocabulary row of its id
  otherwise. Both programs first build the id → row table (−1, and at each tune id its position) and read it at every
  token's id; the reference then gathers both tables' rows at every token and selects, while the kernel runs one grid
  point per token, is handed the two candidate rows by block index maps that read prefetched tables, and stores the
  selected one.

  The precondition says, beside the float tables being finite (never used: the tables' entries are only moved), that
  every token id lies in the vocabulary, `0 ≤ ids < 50257`. Under it:
  * the kernel's two gathered blocks lie inside their tables at every token (Proof/OkIdeal.lean, and for the word-level
    program Proof/OkBits.lean), which is what its generated frame asks;
  * the kernel's result is, element by element, the specification `OutSpec.out` of the arguments (Proof/KerValue.lean);
  * so is the reference's (Proof/RefValue.lean, over the reference's run).
  The idealization rewrote nothing, so the two kernels are the same text read at two instances.
-/
import proofs.«422221_j4063039062251_2_alg».proof.Defs
import proofs.«422221_j4063039062251_2_alg».proof.Proof.Gen.Kernel
import proofs.«422221_j4063039062251_2_alg».proof.Proof.Gen.Kernel.Frame
import proofs.«422221_j4063039062251_2_alg».proof.Proof.Gen.KernelIdeal
import proofs.«422221_j4063039062251_2_alg».proof.Proof.Gen.KernelIdeal.Frame
import proofs.«422221_j4063039062251_2_alg».proof.Proof.Gen.ReferenceIdeal
import proofs.«422221_j4063039062251_2_alg».proof.Proof.Gen.Pre_finite_inputs
import proofs.«422221_j4063039062251_2_alg».proof.Proof.PreDecode
import proofs.«422221_j4063039062251_2_alg».proof.Proof.OkBits
import proofs.«422221_j4063039062251_2_alg».proof.Proof.OkIdeal
import proofs.«422221_j4063039062251_2_alg».proof.Proof.KerValue
import proofs.«422221_j4063039062251_2_alg».proof.Proof.RefValue
import Idealize.ShloMosaic.Adequacy
import Idealize.ShloMosaic.Init

noncomputable section

namespace Cert.Proof

open Idealize.ShloMosaic Idealize.SL.Sem

/-- The token ids of a memory satisfying the word-level program's precondition lie in the vocabulary. -/
theorem ids_Kernel (m : (ℓ : Loc Cert.Kernel.nD Cert.Kernel.τ Cert.Kernel.sig) → Buf (Elt Bits) ℓ) (h : Cert.Pre_Kernel m) :
    Cert.OutSpec.IdsInVocab (Cert.Kernel.Tables.idsOf m) :=
  Cert.PreDecode.idsInVocab _ _ _ _ (h 0)

/-- The same for the idealized kernel's. -/
theorem ids_KernelIdeal (m : (ℓ : Loc Cert.KernelIdeal.nD Cert.KernelIdeal.τ Cert.KernelIdeal.sig) → Buf (Elt Ideal) ℓ)
    (h : Cert.Pre_KernelIdeal m) : Cert.OutSpec.IdsInVocab (Cert.KernelIdeal.Tables.idsOf m) :=
  Cert.PreDecode.idsInVocab _ _ _ _ (h 0)

theorem claim : Cert.Claim := ⟨Cert.Kernel.Gen.facts, Cert.KernelIdeal.Gen.facts, Cert.ReferenceIdeal.Gen.facts, Cert.Pre_finite_inputs.Gen.facts,
  -- the word-level kernel runs: its blocks are inside their tables
  fun m ρ h => Cert.Kernel.Gen.frame m ρ (Cert.Kernel.OkOfIds.ok_of_ids m (ids_Kernel m h)),
  -- the idealized kernel runs, for the same reason
  fun m ρ h => Cert.KernelIdeal.Gen.frame m ρ (Cert.KernelIdeal.OkOfIds.ok_of_ids m (ids_KernelIdeal m h)),
  -- the reference runs: its run with the result dropped
  fun m ρ _ => (θ_run Cert.ReferenceIdeal.defs _ _).mono (fun _ h c => (h c).2) (Cert.ReferenceIdeal.ValueP.run (F := Ideal) m ρ),
  -- the idealization rewrote nothing
  trivial,
  -- both results are the specification of the (agreeing) arguments
  fun m ρ m' ρ' h hagree =>
    ⟨fun c => Cert.OutSpec.out (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelIdeal.Result.run_out m ρ (Cert.KernelIdeal.OkOfIds.ok_of_ids m (ids_KernelIdeal m h)) (ids_KernelIdeal m h),
      (θ_run Cert.ReferenceIdeal.defs _ _).mono (fun _ hr c =>
        ⟨by
          obtain rfl : c = 0 := Subsingleton.elim _ _
          rw [(hr 0).1, Cert.ReferenceIdeal.ReadP.val_main_v35_eq,
            Cert.RefValue.ref_eq_out _ _ _ _ (by rw [(hagree 0).1]; exact ids_KernelIdeal m h),
            (hagree 0).1, (hagree 0).2.1, (hagree 0).2.2.1, (hagree 0).2.2.2],
          (hr c).2⟩)
        (Cert.ReferenceIdeal.ValueP.run (F := Ideal) m' ρ')⟩⟩

end Cert.Proof

end
